-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)) (v1 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S60000x128 : Shape := ⟨2, ![60000, 128]⟩
abbrev S40000x128 : Shape := ⟨2, ![40000, 128]⟩
abbrev S128x128 : Shape := ⟨2, ![128, 128]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S60000x128 : S_.BroadcastsInDim S60000x128 (![] : Fin 0 → Fin S60000x128.rank)
  reducesTo_S60000x128_S_d0_1 : S60000x128.ReducesTo [0, 1] S_
  bcast_S_S40000x128 : S_.BroadcastsInDim S40000x128 (![] : Fin 0 → Fin S40000x128.rank)
  reducesTo_S40000x128_S_d0_1 : S40000x128.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg6 : FVec F S128x128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  main_v28

def fn {F : FTy → Type} [FloatOps F] (main_arg0 : IVec S1600000 32) (main_arg1 : IVec S1600000 32) (main_arg2 : FVec F S1600000 .f32) (main_arg3 : FVec F S60000x128 .f32) (main_arg4 : FVec F S40000x128 .f32) (main_arg5 : FVec F S128x128 .f32) (main_arg6 : FVec F S128x128 .f32) (main_arg7 : FVec F S128x128 .f32) : IVec S_ 1 :=
  let main_v0 : FVec F S1600000 .f32 := Host.absf main_arg2
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S60000x128 .f32 := Host.absf main_arg3
  let main_cst_0 : FVec F S_ .f32 := constant S_ .f32 0x7F800000#32
  let main_v5 : FVec F S60000x128 .f32 := broadcastInDim S60000x128 ![] bcast_S_S60000x128 main_cst_0
  let main_v6 : IVec S60000x128 1 := cmpf .olt main_v4 main_v5
  let main_c_1 : IVec S_ 1 := constantI S_ 1 1#1
  let main_v7 : IVec S_ 1 := (fun x v => Host.reduce IntOp.andi x v reducesTo_S60000x128_S_d0_1 h_S_) main_v6 main_c_1
  let main_v8 : IVec S_ 1 := andi main_v3 main_v7
  let main_v9 : FVec F S40000x128 .f32 := Host.absf main_arg4
  let main_cst_2 : FVec F S_ .f32 := constant S_ .f32 0x7F800000#32
  let main_v10 : FVec F S40000x128 .f32 := broadcastInDim S40000x128 ![] bcast_S_S40000x128 main_cst_2
  let main_v11 : IVec S40000x128 1 := cmpf .olt main_v9 main_v10
  let main_c_3 : IVec S_ 1 := constantI S_ 1 1#1
  let main_v12 : IVec S_ 1 := (fun x v => Host.reduce IntOp.andi x v reducesTo_S40000x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_v13 main_v16
-- ==== Kernel.lean ====
abbrev S1600000 : Shape := ⟨1, ![1600000]⟩
abbrev S60000x128 : Shape := ⟨2, ![60000, 128]⟩
abbrev S40000x128 : Shape := ⟨2, ![40000, 128]⟩
abbrev S128x128 : Shape := ⟨2, ![128, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 65
  | .vmem => 27
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S60000x128, .f32⟩
  | .hbm, ⟨4, _⟩ => ⟨S40000x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S1600000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x128, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S60000x128, .f32⟩
  | .hbm, ⟨64, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S128x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28_0 : Ref sig .tc := ⟨.hbm, 43, rfl⟩
abbrev main_v28_1 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42_0 : Ref sig .tc := ⟨.hbm, 61, rfl⟩
abbrev main_v42_1 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  concatenates_S60000x128_S40000x128_S100000x128_d0 : Shape.Concatenates [S60000x128, S40000x128] S100000x128 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  reduces_S5000x128_S5000 : S5000x128.Reduces [1] S5000
  shapeCasts_S5000_S5000x1 : S5000.ShapeCasts S5000x1
  broadcasts_S5000x1_S5000x128 : S5000x1.Broadcasts S5000x128
  slices_S100000x128_S60000x128_0_0 : S100000x128.Slices ![0, 0] S60000x128
  slices_S100000x128_S40000x128_60000_0 : S100000x128.Slices ![60000, 0] S40000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v28_1) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28_1) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v42_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42_1) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S1600000 : Shape := ⟨1, ![1600000]⟩
abbrev S60000x128 : Shape := ⟨2, ![60000, 128]⟩
abbrev S40000x128 : Shape := ⟨2, ![40000, 128]⟩
abbrev S128x128 : Shape := ⟨2, ![128, 128]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S1600000, .f32⟩
  | .hbm, ⟨3, _⟩ => ⟨S60000x128, .f32⟩
  | .hbm, ⟨4, _⟩ => ⟨S40000x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S100000x128, .f32⟩
  | .hbm, ⟨9, _⟩ => ⟨S1600000x1, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S_, .f32⟩
  | .hbm, ⟨31, _⟩ => ⟨S100000, .f32⟩
  | .hbm, ⟨32, _⟩ => ⟨S100000x1, .f32⟩
  | .hbm, ⟨33, _⟩ => ⟨S100000x1, .f32⟩
  | .hbm, ⟨34, _⟩ => ⟨S_, .f32⟩
  | .hbm, ⟨35, _⟩ => ⟨S100000x1, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1600000x1, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000, .f32⟩
  | .hbm, ⟨63, _⟩ => ⟨S100000x1, .f32⟩
  | .hbm, ⟨64, _⟩ => ⟨S100000x1, .f32⟩
  | .hbm, ⟨65, _⟩ => ⟨S_, .f32⟩
  | .hbm, ⟨66, _⟩ => ⟨S100000x1, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S1600000x1, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S1600000x128, .f32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S_, .f32⟩
  | .hbm, ⟨89, _⟩ => ⟨S100000x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000, .f32⟩
  | .hbm, ⟨94, _⟩ => ⟨S100000x1, .f32⟩
  | .hbm, ⟨95, _⟩ => ⟨S100000x1, .f32⟩
  | .hbm, ⟨96, _⟩ => ⟨S_, .f32⟩
  | .hbm, ⟨97, _⟩ => ⟨S100000x1, .f32⟩
  | .hbm, ⟨98, _⟩ => ⟨S100000x1, .f32⟩
  | .hbm, ⟨99, _⟩ => ⟨S100000x128, .f32⟩
  | .hbm, ⟨100, _⟩ => ⟨S100000x128, .f32⟩
  | .hbm, ⟨101, _⟩ => ⟨S100000x128, .f32⟩
  | .hbm, ⟨102, _⟩ => ⟨S60000x128, .f32⟩
  | .hbm, ⟨103, _⟩ => ⟨S40000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_cst : Ref sig .tc := ⟨.hbm, 26, rfl⟩
abbrev main_call0_v0 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call2_cst : Ref sig .tc := ⟨.hbm, 88, rfl⟩
abbrev main_call2_v0 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩

abbrev nD : Nat := 1
abbrev τ : Topo := Topo.v7x

variable {F : FTy → Type} [FloatOps F]

class Facts₀ : Prop where
  concatenates_S60000x128_S40000x128_S100000x128_d0 : Shape.Concatenates [S60000x128, S40000x128] S100000x128 0
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S100000x128_S60000x128_0_0 : S100000x128.Slices ![0, 0] S60000x128
  slices_S100000x128_S40000x128_60000_0 : S100000x128.Slices ![60000, 0] S40000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LayerMath.lean ====
/-
  One dense layer of the network, row by row, on the extended reals.

  For a table `x` of `n` rows of 128 entries and a 128 × 128 filter `w`:
  * `act x w r j` is entry `(r, j)` of `max (x · w) 0`: the row-by-column sum, clipped below at zero;
  * `sumSq x w r` is the sum of the squares of row `r` of that matrix;
  * `unit x w r j` is entry `(r, j)` of the row divided by `max (√sumSq) ε`, the row brought to unit length
    (`ε` the float 0x2B8CBCCC, about 1e-12, the same literal on both sides of the certificate).
  Row `r` of the result depends on row `r` of `x` only: `unit_congr`.
-/
import Idealize.ShloMosaic.PureOps.Ideal
import Idealize.ShloMosaic.PureOps.Ideal.Laws
import Idealize.ShloMosaic.Lib.ValueIdx

noncomputable section

open scoped BigOperators

namespace Cert.Layer

open Idealize.ShloMosaic Idealize.ShloMosaic.ValueIdx

/-- Entry `(r, j)` of `max (x · w) 0`. -/
def act {n : Nat} (x : (⟨2, ![n, 128]⟩ : Shape).Idx → EReal) (w : (⟨2, ![128, 128]⟩ : Shape).Idx → EReal)
    (r : Fin n) (j : Fin 128) : EReal :=
  max (∑ k : Fin 128, x (ix2 r k) * w (ix2 k j)) (Ideal.ofBits .f32 0x00000000#32)

/-- The sum of the squares of row `r` of `max (x · w) 0`. -/
def sumSq {n : Nat} (x : (⟨2, ![n, 128]⟩ : Shape).Idx → EReal) (w : (⟨2, ![128, 128]⟩ : Shape).Idx → EReal)
    (r : Fin n) : EReal :=
  ∑ j : Fin 128, act x w r j * act x w r j

/-- Entry `(r, j)` of the row of `max (x · w) 0` divided by `max (√(sum of its squares)) ε`. -/
def unit {n : Nat} (x : (⟨2, ![n, 128]⟩ : Shape).Idx → EReal) (w : (⟨2, ![128, 128]⟩ : Shape).Idx → EReal)
    (r : Fin n) (j : Fin 128) : EReal :=
  Ideal.div (act x w r j) (max (Ideal.sqrt (sumSq x w r)) (Ideal.ofBits .f32 0x2B8CBCCC#32))

/-- Row `r'` of a table that agrees with row `r` of another gives the same entries of `max (x · w) 0`. -/
theorem act_congr {n n' : Nat} (x : (⟨2, ![n, 128]⟩ : Shape).Idx → EReal) (x' : (⟨2, ![n', 128]⟩ : Shape).Idx → EReal)
    (w : (⟨2, ![128, 128]⟩ : Shape).Idx → EReal) (r : Fin n) (r' : Fin n')
    (h : ∀ k : Fin 128, x' (ix2 r' k) = x (ix2 r k)) (j : Fin 128) : act x' w r' j = act x w r j := by
  unfold act
  exact congrArg (max · _) (Finset.sum_congr rfl fun k _ => by rw [h k])

/-- … and the same normalised row. -/
theorem unit_congr {n n' : Nat} (x : (⟨2, ![n, 128]⟩ : Shape).Idx → EReal) (x' : (⟨2, ![n', 128]⟩ : Shape).Idx → EReal)
    (w : (⟨2, ![128, 128]⟩ : Shape).Idx → EReal) (r : Fin n) (r' : Fin n')
    (h : ∀ k : Fin 128, x' (ix2 r' k) = x (ix2 r k)) (j : Fin 128) : unit x' w r' j = unit x w r j := by
  unfold unit sumSq
  rw [act_congr x x' w r r' h j]
  exact congrArg (fun s => Ideal.div _ (max (Ideal.sqrt s) _))
    (Finset.sum_congr rfl fun j' _ => by rw [act_congr x x' w r r' h j'])

end Cert.Layer

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.KernelLayer.lean ====
/-
  The kernel body's arithmetic on one block of 5000 rows, read entry by entry on the extended reals: the block's
  product with the filter into a zero accumulator, clipped at zero, each row divided by `max (√(sum of its squares)) ε`.
  Entry `(p, j)` of what the body stores into its first output is `Cert.Layer.unit` of the block at `(p, j)`, and what it
  stores into its second output adds that to the running total's block. The three launches run the same body.
-/
import proofs.«179333_j4269197492538_1_alg».proof.Proof.Gen.KernelIdeal.Skeleton
import proofs.«179333_j4269197492538_1_alg».proof.Proof.LayerMath
import proofs.«179333_j4269197492538_1_alg».proof.Proof.LibRowDims
import Idealize.ShloMosaic.Lib.Pipeline.Value

noncomputable section

open scoped BigOperators

namespace Cert.KernelIdeal.Layer

open Cert.KernelIdeal Cert.KernelIdeal.Gen Idealize.ShloMosaic Idealize.ShloMosaic.ValueIdx Cert.Layer

/-- The body's product has the plain `[5000, 128] × [128, 128]` dimension numbers. -/
theorem blockDot_eq : dot_S5000x128_S128x128_S5000x128_1_0_0_1_n_n = DotDims.plain 5000 128 128 := rfl

/-- `max (xb · w) 0` on a block, as the body computes it. -/
def blockAct (xb : FVec Ideal S5000x128 .f32) (w : FVec Ideal S128x128 .f32) : FVec Ideal S5000x128 .f32 :=
  maximumf
    (matmul dot_S5000x128_S128x128_S5000x128_1_0_0_1_n_n none (shapeCast S5000x128 xb shapeCasts_S5000x128_S5000x128) w
      (constant S5000x128 .f32 0x00000000#32))
    (broadcast S5000x128 (Scalar.ofBits .f32 0x00000000#32))

/-- The block's rows' divisors `max (√(sum of squares)) ε`, laid out over the rows, as the body computes them. -/
def blockNorm (y : FVec Ideal S5000x128 .f32) : FVec Ideal S5000x128 .f32 :=
  broadcastTo S5000x128
    (maximumf
      (sqrt (shapeCast S5000x1 (multiReduction .add [1] S5000 (mulf y y) 0x00000000#32 reduces_S5000x128_S5000 (.inl rfl) rfl)
        shapeCasts_S5000_S5000x1))
      (broadcast S5000x1 (Scalar.ofBits .f32 0x2B8CBCCC#32)))
    broadcasts_S5000x1_S5000x128

/-- The first store's value is the clipped product over its rows' divisors. -/
theorem pay1_eq (xb : FVec Ideal S5000x128 .f32) (w : FVec Ideal S128x128 .f32) :
    k0_pay1 (F := Ideal) xb w = divf (blockAct xb w) (blockNorm (blockAct xb w)) := rfl

/-- `max (xb · w) 0` read at an entry. -/
theorem blockAct_apply (xb : FVec Ideal S5000x128 .f32) (w : FVec Ideal S128x128 .f32) (p : Fin 5000) (j : Fin 128) :
    blockAct xb w (ix2 p j) = act xb w p j := by
  unfold blockAct act
  rw [maximumf_apply, shapeCast_self]
  refine congrArg₂ max ?_ rfl
  rw [blockDot_eq]
  exact RowDims.matmul_plain_zero_apply none xb w p j

/-- The divisor is constant along a row of the block. -/
theorem blockNorm_apply (y : FVec Ideal S5000x128 .f32) (p : Fin 5000) (j : Fin 128) :
    blockNorm y (ix2 p j) = max (Ideal.sqrt (∑ j' : Fin 128, y (ix2 p j') * y (ix2 p j'))) (Ideal.ofBits .f32 0x2B8CBCCC#32) := by
  unfold blockNorm
  rw [broadcastTo_apply _ broadcasts_S5000x1_S5000x128 (ix2 p j) (ix2 p (0 : Fin 1)) (fun a => match a with
    | ⟨0, _⟩ => by show p.val = if (5000 : Nat) = 1 then 0 else p.val; rw [if_neg (by decide)]
    | ⟨1, _⟩ => by show 0 = if (1 : Nat) = 1 then 0 else j.val; rw [if_pos rfl])]
  rw [maximumf_apply]
  refine congrArg₂ max ?_ rfl
  show Ideal.sqrt (shapeCast S5000x1 _ shapeCasts_S5000_S5000x1 (ix2 p (0 : Fin 1))) = _
  refine congrArg Ideal.sqrt ?_
  rw [shapeCast_apply _ shapeCasts_S5000_S5000x1 (ix2 p (0 : Fin 1)) (ix1 p) (by
    rw [Shape.rowMajor_val_one, Shape.rowMajor_val_two]; show p.val = p.val * 1 + 0; omega)]
  refine (Ideal.multiReduction_add_single (mulf y y) 0x00000000#32 reduces_S5000x128_S5000 (.inl rfl) rfl (ix1 p)).trans ?_
  refine Finset.sum_congr rfl fun j' _ => ?_
  exact congrArg (fun i => y i * y i) (funext fun a => Fin.ext (by match a with | ⟨0, _⟩ => rfl | ⟨1, _⟩ => rfl))

/-- Entry `(p, j)` of the first store's value. -/
theorem pay1_apply (xb : FVec Ideal S5000x128 .f32) (w : FVec Ideal S128x128 .f32) (p : Fin 5000) (j : Fin 128) :
    k0_pay1 (F := Ideal) xb w (ix2 p j) = unit xb w p j := by
  rw [pay1_eq, divf_apply, blockNorm_apply, blockAct_apply]
  unfold unit sumSq
  simp only [blockAct_apply]

/-- Entry `(p, j)` of the second store's value: the running total's entry plus the first store's. -/
theorem pay2_apply (xb : FVec Ideal S5000x128 .f32) (w : FVec Ideal S128x128 .f32) (tb : FVec Ideal S5000x128 .f32)
    (p : Fin 5000) (j : Fin 128) : k0_pay2 (F := Ideal) xb w tb (ix2 p j) = tb (ix2 p j) + unit xb w p j := by
  show addf (shapeCast S5000x128 tb shapeCasts_S5000x128_S5000x128) (k0_pay1 (F := Ideal) xb w) (ix2 p j) = _
  rw [addf_apply, shapeCast_self, pay1_apply]

/-- The second and third launches run the same body as the first. -/
theorem pay1_eq1 : @k1_pay1 Ideal _ = @k0_pay1 Ideal _ := rfl
theorem pay1_eq2 : @k2_pay1 Ideal _ = @k0_pay1 Ideal _ := rfl
theorem pay2_eq1 : @k1_pay2 Ideal _ = @k0_pay2 Ideal _ := rfl
theorem pay2_eq2 : @k2_pay2 Ideal _ = @k0_pay2 Ideal _ := rfl

end Cert.KernelIdeal.Layer

end
-- ==== Proof.HostLayer.lean ====
/-
  The dense layer as the reference program computes it, on whole arrays: the host's product with the filter, clipped
  at zero, each row divided by `max (√(sum of its squares)) ε`. `dense` is written with the host's own operations, so
  that the reference's result term is built from it as it stands; `dense_apply` reads it at an entry, on the extended
  reals, as `Cert.Layer.unit`.
-/
import proofs.«179333_j4269197492538_1_alg».proof.Proof.Gen.ReferenceIdeal
import proofs.«179333_j4269197492538_1_alg».proof.Proof.LayerMath
import proofs.«179333_j4269197492538_1_alg».proof.Proof.LibRowDims
import Idealize.ShloMosaic.Lib.Pipeline.Value

noncomputable section

open scoped BigOperators

namespace Cert.Layer

open Cert.ReferenceIdeal Cert.ReferenceIdeal.Gen Idealize.ShloMosaic Idealize.ShloMosaic.ValueIdx

section
variable {F : FTy → Type} [FloatOps F]

/-- `max (x · w) 0` on whole arrays, by the host's product. -/
def hostAct (x : FVec F S100000x128 .f32) (w : FVec F S128x128 .f32) : FVec F S100000x128 .f32 :=
  maximumf (Host.dotGeneral dot_S100000x128_S128x128_S100000x128_1_0_0_1_n_n none x w)
    (broadcastInDim S100000x128 ![] bcast_S_S100000x128 (constant S_ .f32 0x00000000#32))

/-- Each row's divisor `max (√(sum of squares)) ε`, laid out over the row. -/
def hostNorm (y : FVec F S100000x128 .f32) : FVec F S100000x128 .f32 :=
  broadcastInDim S100000x128 ![0, 1] bcast_S100000x1_S100000x128_0_1
    (maximumf
      (Host.sqrt (broadcastInDim S100000x1 ![0] bcast_S100000_S100000x1_0
        (Host.reduceAdd (mulf y y) (constant S_ .f32 0x00000000#32) reducesTo_S100000x128_S100000_d1 h_S_)))
      (broadcastInDim S100000x1 ![] bcast_S_S100000x1 (constant S_ .f32 0x2B8CBCCC#32)))

/-- The dense layer on whole arrays. -/
def dense (x : FVec F S100000x128 .f32) (w : FVec F S128x128 .f32) : FVec F S100000x128 .f32 :=
  Host.divf (hostAct x w) (hostNorm (hostAct x w))

end

/-- The host's product's dimension numbers are the plain `[100000, 128] × [128, 128]` ones. -/
theorem hostDot_eq : dot_S100000x128_S128x128_S100000x128_1_0_0_1_n_n = DotDims.plain 100000 128 128 := rfl

/-- `max (x · w) 0` read at an entry. -/
theorem hostAct_apply (x : FVec Ideal S100000x128 .f32) (w : FVec Ideal S128x128 .f32) (r : Fin 100000) (j : Fin 128) :
    hostAct x w (ix2 r j) = act x w r j := by
  unfold hostAct act
  rw [maximumf_apply]
  refine congrArg₂ max ?_ ?_
  · simp only [Host.dotGeneral]
    rw [hostDot_eq]
    exact RowDims.dotGeneral_plain_apply none _ x w r j
  · exact broadcastInDim_apply _ bcast_S_S100000x128 _ _ ix0 (fun a => a.elim0)

/-- The host's quotient and square root act entry by entry. -/
theorem host_divf_apply {s : Shape} {φ : FTy} (a b : FVec Ideal s φ) (i : s.Idx) : Host.divf a b i = Ideal.div (a i) (b i) := rfl
theorem host_sqrt_apply {s : Shape} {φ : FTy} (a : FVec Ideal s φ) (i : s.Idx) : Host.sqrt a i = Ideal.sqrt (a i) := rfl

/-- The divisor is constant along a row: `max (√(sum of the row's squares)) ε`. -/
theorem hostNorm_apply (y : FVec Ideal S100000x128 .f32) (r : Fin 100000) (j : Fin 128) :
    hostNorm y (ix2 r j) = max (Ideal.sqrt (∑ j' : Fin 128, y (ix2 r j') * y (ix2 r j'))) (Ideal.ofBits .f32 0x2B8CBCCC#32) := by
  unfold hostNorm
  -- read the laid-out column at (r, 0)
  rw [broadcastInDim_apply _ bcast_S100000x1_S100000x128_0_1 _ (ix2 r j) (ix2 r (0 : Fin 1)) (fun a => match a with
    | ⟨0, _⟩ => by show r.val = if (100000 : Nat) = 1 then 0 else r.val; rw [if_neg (by decide)]
    | ⟨1, _⟩ => by show 0 = if (1 : Nat) = 1 then 0 else j.val; rw [if_pos rfl])]
  rw [maximumf_apply]
  refine congrArg₂ max ?_ ?_
  · rw [host_sqrt_apply]
    refine congrArg Ideal.sqrt ?_
    rw [broadcastInDim_apply _ bcast_S100000_S100000x1_0 _ (ix2 r (0 : Fin 1)) (ix1 r) (fun a => match a with
      | ⟨0, _⟩ => by show r.val = if (100000 : Nat) = 1 then 0 else r.val; rw [if_neg (by decide)])]
    simp only [Host.reduceAdd, Ideal.hostReduceAdd_def]
    rw [Ideal.hostReduceAdd_single reducesTo_S100000x128_S100000_d1 (by decide)]
    refine (congrArg (· + _) (Ideal.ofBits_zero_f32)).trans ((zero_add _).trans ?_)
    refine Finset.sum_congr rfl fun j' _ => ?_
    exact congrArg (fun i => y i * y i) (funext fun a => Fin.ext (by match a with | ⟨0, _⟩ => rfl | ⟨1, _⟩ => rfl))
  · exact broadcastInDim_apply _ bcast_S_S100000x1 _ _ ix0 (fun a => a.elim0)

/-- The dense layer read at an entry. -/
theorem dense_apply (x : FVec Ideal S100000x128 .f32) (w : FVec Ideal S128x128 .f32) (r : Fin 100000) (j : Fin 128) :
    dense x w (ix2 r j) = unit x w r j := by
  unfold dense
  rw [host_divf_apply, hostNorm_apply, hostAct_apply]
  unfold unit sumSq
  simp only [hostAct_apply]

end Cert.Layer

end
-- ==== Proof.BlockLayer.lean ====
/-
  A block's entry against the whole array's. Point `t` of a launch holds rows `5000 t … 5000 t + 4999` of the table; the
  body's first store at `(p, j)` of the block is then the dense layer of the WHOLE table at that row and column, because a
  row of the layer depends on that row of the table alone; its second store adds the running total's entry.
  Stated for each of the three launches' (identical) bodies.
-/
import proofs.«179333_j4269197492538_1_alg».proof.Proof.KernelLayer
import proofs.«179333_j4269197492538_1_alg».proof.Proof.HostLayer

noncomputable section

open scoped BigOperators

namespace Cert.KernelIdeal.Layer

open Cert.KernelIdeal Cert.KernelIdeal.Gen Idealize.ShloMosaic Idealize.ShloMosaic.ValueIdx Cert.Layer

/-- The first store at block entry `y`, when the block's row `y 0` is the table's row `i 0` and the columns agree. -/
theorem pay1_at_0 (x : FVec Ideal S100000x128 .f32) (w : FVec Ideal S128x128 .f32)
    (xb : FVec Ideal S5000x128 .f32) (wb : FVec Ideal S128x128 .f32) (y : S5000x128.Idx) (i : S100000x128.Idx)
    (hw : ∀ a, wb a = w a) (hcol : (i 1).val = (y 1).val)
    (hx : ∀ k : Fin 128, xb (ix2 (⟨(y 0).val, (y 0).isLt⟩ : Fin 5000) k) = x (ix2 (⟨(i 0).val, (i 0).isLt⟩ : Fin 100000) k)) :
    k0_pay1 (F := Ideal) xb wb y = dense x w i := by
  obtain rfl : wb = w := funext hw
  obtain ⟨p, j, rfl⟩ : ∃ (p : Fin 5000) (j : Fin 128), y = ix2 p j := ⟨y 0, y 1, eq_ix2 y⟩
  obtain ⟨r, j', rfl⟩ : ∃ (r : Fin 100000) (j' : Fin 128), i = ix2 r j' := ⟨i 0, i 1, eq_ix2 i⟩
  rw [show j' = j from Fin.ext hcol]
  exact (pay1_apply xb wb p j).trans ((unit_congr x xb wb r p hx j).trans (dense_apply x wb r j).symm)

/-- The second store at block entry `y`: the running total's entry there plus the first store's. -/
theorem pay2_at_0 (x T : FVec Ideal S100000x128 .f32) (w : FVec Ideal S128x128 .f32)
    (xb tb : FVec Ideal S5000x128 .f32) (wb : FVec Ideal S128x128 .f32) (y : S5000x128.Idx) (i : S100000x128.Idx)
    (hw : ∀ a, wb a = w a) (hcol : (i 1).val = (y 1).val)
    (hx : ∀ k : Fin 128, xb (ix2 (⟨(y 0).val, (y 0).isLt⟩ : Fin 5000) k) = x (ix2 (⟨(i 0).val, (i 0).isLt⟩ : Fin 100000) k))
    (ht : tb y = T i) :
    k0_pay2 (F := Ideal) xb wb tb y = addf T (dense x w) i := by
  have h1 := pay1_at_0 x w xb wb y i hw hcol hx
  obtain ⟨p, j, rfl⟩ : ∃ (p : Fin 5000) (j : Fin 128), y = ix2 p j := ⟨y 0, y 1, eq_ix2 y⟩
  rw [addf_apply, ← h1, ← ht, pay2_apply, pay1_apply]

/-- The same two facts for the second launch's body … -/
theorem pay1_at_1 (x : FVec Ideal S100000x128 .f32) (w : FVec Ideal S128x128 .f32)
    (xb : FVec Ideal S5000x128 .f32) (wb : FVec Ideal S128x128 .f32) (y : S5000x128.Idx) (i : S100000x128.Idx)
    (hw : ∀ a, wb a = w a) (hcol : (i 1).val = (y 1).val)
    (hx : ∀ k : Fin 128, xb (ix2 (⟨(y 0).val, (y 0).isLt⟩ : Fin 5000) k) = x (ix2 (⟨(i 0).val, (i 0).isLt⟩ : Fin 100000) k)) :
    k1_pay1 (F := Ideal) xb wb y = dense x w i :=
  (congrFun (congrFun (congrFun pay1_eq1 xb) wb) y).trans (pay1_at_0 x w xb wb y i hw hcol hx)

theorem pay2_at_1 (x T : FVec Ideal S100000x128 .f32) (w : FVec Ideal S128x128 .f32)
    (xb tb : FVec Ideal S5000x128 .f32) (wb : FVec Ideal S128x128 .f32) (y : S5000x128.Idx) (i : S100000x128.Idx)
    (hw : ∀ a, wb a = w a) (hcol : (i 1).val = (y 1).val)
    (hx : ∀ k : Fin 128, xb (ix2 (⟨(y 0).val, (y 0).isLt⟩ : Fin 5000) k) = x (ix2 (⟨(i 0).val, (i 0).isLt⟩ : Fin 100000) k))
    (ht : tb y = T i) :
    k1_pay2 (F := Ideal) xb wb tb y = addf T (dense x w) i :=
  (congrFun (congrFun (congrFun (congrFun pay2_eq1 xb) wb) tb) y).trans (pay2_at_0 x T w xb tb wb y i hw hcol hx ht)

/-- … and for the third's. -/
theorem pay1_at_2 (x : FVec Ideal S100000x128 .f32) (w : FVec Ideal S128x128 .f32)
    (xb : FVec Ideal S5000x128 .f32) (wb : FVec Ideal S128x128 .f32) (y : S5000x128.Idx) (i : S100000x128.Idx)
    (hw : ∀ a, wb a = w a) (hcol : (i 1).val = (y 1).val)
    (hx : ∀ k : Fin 128, xb (ix2 (⟨(y 0).val, (y 0).isLt⟩ : Fin 5000) k) = x (ix2 (⟨(i 0).val, (i 0).isLt⟩ : Fin 100000) k)) :
    k2_pay1 (F := Ideal) xb wb y = dense x w i :=
  (congrFun (congrFun (congrFun pay1_eq2 xb) wb) y).trans (pay1_at_0 x w xb wb y i hw hcol hx)

theorem pay2_at_2 (x T : FVec Ideal S100000x128 .f32) (w : FVec Ideal S128x128 .f32)
    (xb tb : FVec Ideal S5000x128 .f32) (wb : FVec Ideal S128x128 .f32) (y : S5000x128.Idx) (i : S100000x128.Idx)
    (hw : ∀ a, wb a = w a) (hcol : (i 1).val = (y 1).val)
    (hx : ∀ k : Fin 128, xb (ix2 (⟨(y 0).val, (y 0).isLt⟩ : Fin 5000) k) = x (ix2 (⟨(i 0).val, (i 0).isLt⟩ : Fin 100000) k))
    (ht : tb y = T i) :
    k2_pay2 (F := Ideal) xb wb tb y = addf T (dense x w) i :=
  (congrFun (congrFun (congrFun (congrFun pay2_eq2 xb) wb) tb) y).trans (pay2_at_0 x T w xb tb wb y i hw hcol hx ht)

end Cert.KernelIdeal.Layer

end
-- ==== Proof.Region0Value.lean ====
/-
  What launch 0 leaves in its two output arrays, for any contents `V` of the buffers when it is entered.
  Its grid has 20 points; point `t` takes rows `5000 t … 5000 t + 4999` of the table `main_v13` and of the running total
  `main_v0`, the whole filter `main_arg5`, and writes the same rows of the two results. The row blocks tile the 100000 rows, so
  after the launch the first result is the dense layer of the table and the second the running total plus it.
-/
import proofs.«179333_j4269197492538_1_alg».proof.Proof.Gen.KernelIdeal.Frame
import proofs.«179333_j4269197492538_1_alg».proof.Proof.BlockLayer

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Layer Cert.KernelIdeal.Layer

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the row-tiled windows at block row `t`, the filter at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The table, the filter and the running total as the launch finds them. -/
abbrev xArr (c : Dev nD) : FVec Ideal S100000x128 .f32 := V c main_v13
abbrev wArr (c : Dev nD) : FVec Ideal S128x128 .f32 := V c main_arg5
abbrev tArr (c : Dev nD) : FVec Ideal S100000x128 .f32 := V c main_v0

/-- Point `t` writes back, into the first result, block `t` of the dense layer of the table. -/
theorem flushed3_eq (c : Dev nD) (t : Fin cfg0.N) :
    (dat0 V c).flushed 3 t = ((cfg0.win 3).blk t).view.read (Elt Ideal) (dense (xArr V c) (wArr V c)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz]
  obtain ⟨e00, e01, e10, e11, e20, e21, e30, e31, e40, e41⟩ := idx_facts t
  funext y
  show k0_pay1 (F := Ideal) (iblk0 V c 0 t) (iblk0 V c 1 t) y = dense (xArr V c) (wArr V c) (((cfg0.win 3).blk t).view.emb y)
  refine pay1_at_0 (xArr V c) (wArr V c) (iblk0 V c 0 t) (iblk0 V c 1 t) y (((cfg0.win 3).blk t).view.emb y) ?_ ?_ ?_
  · -- the filter's one block is the filter
    intro a
    show V c main_arg5 (((cfg0.win 1).blk t).view.emb a) = V c main_arg5 a
    refine congrArg (V c main_arg5) (funext fun b => Fin.ext ?_)
    match b with
    | ⟨0, _⟩ => show win0_1.index t (0 : Fin 2) * 128 + 1 * (a 0).val = (a 0).val; omega
    | ⟨1, _⟩ => show win0_1.index t (1 : Fin 2) * 128 + 1 * (a 1).val = (a 1).val; omega
  · -- the result's column is the block's
    show win0_3.index t (1 : Fin 2) * 128 + 1 * (y 1).val = (y 1).val; omega
  · -- the table's block row is the result's
    intro k
    show V c main_v13 (((cfg0.win 0).blk t).view.emb (ix2 (⟨(y 0).val, (y 0).isLt⟩ : Fin 5000) k)) = V c main_v13 _
    refine congrArg (V c main_v13) (funext fun b => Fin.ext ?_)
    match b with
    | ⟨0, _⟩ => show win0_0.index t (0 : Fin 2) * 5000 + 1 * (y 0).val = win0_3.index t (0 : Fin 2) * 5000 + 1 * (y 0).val; omega
    | ⟨1, _⟩ => show win0_0.index t (1 : Fin 2) * 128 + 1 * k.val = k.val; omega

/-- … and, into the second result, block `t` of the running total plus the dense layer. -/
theorem flushed4_eq (c : Dev nD) (t : Fin cfg0.N) :
    (dat0 V c).flushed 4 t = ((cfg0.win 4).blk t).view.read (Elt Ideal) (addf (tArr V c) (dense (xArr V c) (wArr V c))) := by
  show (cfg0.win 4).cut (grid0.coords t) ((dat0 V c).after 4 t) = _
  rw [after0_4]
  unfold out0_4
  rw [View.canon_unit_zero hz]
  simp only [View.ld_unit_zero (S := S5000x128) hz, View.ld_unit_zero (S := S128x128) hz]
  obtain ⟨e00, e01, e10, e11, e20, e21, e30, e31, e40, e41⟩ := idx_facts t
  funext y
  show k0_pay2 (F := Ideal) (iblk0 V c 0 t) (iblk0 V c 1 t) (iblk0 V c 2 t) y
    = addf (tArr V c) (dense (xArr V c) (wArr V c)) (((cfg0.win 4).blk t).view.emb y)
  refine pay2_at_0 (xArr V c) (tArr V c) (wArr V c) (iblk0 V c 0 t) (iblk0 V c 2 t) (iblk0 V c 1 t) y
    (((cfg0.win 4).blk t).view.emb y) ?_ ?_ ?_ ?_
  · intro a
    show V c main_arg5 (((cfg0.win 1).blk t).view.emb a) = V c main_arg5 a
    refine congrArg (V c main_arg5) (funext fun b => Fin.ext ?_)
    match b with
    | ⟨0, _⟩ => show win0_1.index t (0 : Fin 2) * 128 + 1 * (a 0).val = (a 0).val; omega
    | ⟨1, _⟩ => show win0_1.index t (1 : Fin 2) * 128 + 1 * (a 1).val = (a 1).val; omega
  · show win0_4.index t (1 : Fin 2) * 128 + 1 * (y 1).val = (y 1).val; omega
  · intro k
    show V c main_v13 (((cfg0.win 0).blk t).view.emb (ix2 (⟨(y 0).val, (y 0).isLt⟩ : Fin 5000) k)) = V c main_v13 _
    refine congrArg (V c main_v13) (funext fun b => Fin.ext ?_)
    match b with
    | ⟨0, _⟩ => show win0_0.index t (0 : Fin 2) * 5000 + 1 * (y 0).val = win0_4.index t (0 : Fin 2) * 5000 + 1 * (y 0).val; omega
    | ⟨1, _⟩ => show win0_0.index t (1 : Fin 2) * 128 + 1 * k.val = k.val; omega
  · -- the running total's block is read where the result's block is written
    show V c main_v0 (((cfg0.win 2).blk t).view.emb y) = V c main_v0 (((cfg0.win 4).blk t).view.emb y)
    refine congrArg (V c main_v0) (funext fun b => Fin.ext ?_)
    match b with
    | ⟨0, _⟩ => show win0_2.index t (0 : Fin 2) * 5000 + 1 * (y 0).val = win0_4.index t (0 : Fin 2) * 5000 + 1 * (y 0).val; omega
    | ⟨1, _⟩ => show win0_2.index t (1 : Fin 2) * 128 + 1 * (y 1).val = win0_4.index t (1 : Fin 2) * 128 + 1 * (y 1).val; omega

/-- An entry is in point `t`'s block of the first result iff each coordinate is in the block's range. -/
theorem mem_blk3 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v14_0).slice (win0_3.rect t)).set ↔ _
  rw [View.set_slice_whole, Rect.mem_set_unit]
  exact Iff.rfl

theorem mem_blk4 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v14_1).slice (win0_4.rect t)).set ↔ _
  rw [View.set_slice_whole, Rect.mem_set_unit]
  exact Iff.rfl

/-- Row `r` is in the block of point `r / 5000`: the blocks cover the result. -/
theorem cover3 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : (i 0).val / 5000 < cfg0.N := by rw [show cfg0.N = 20 from N_0]; omega
  obtain ⟨-, -, -, -, -, -, e30, e31, -, -⟩ := idx_facts ⟨(i 0).val / 5000, hN⟩
  refine ⟨⟨(i 0).val / 5000, hN⟩, flush0_3 _, ?_⟩
  rw [mem_blk3]
  intro a
  match a with
  | ⟨0, _⟩ =>
    show win0_3.index ⟨(i 0).val / 5000, hN⟩ (0 : Fin 2) * 5000 ≤ (i 0).val ∧ (i 0).val < win0_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hN⟩ (1 : Fin 2) * 128 ≤ (i 1).val ∧ (i 1).val < win0_3.index ⟨(i 0).val / 5000, hN⟩ (1 : Fin 2) * 128 + 128
    rw [e31]; omega

theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  have hN : (i 0).val / 5000 < cfg0.N := by rw [show cfg0.N = 20 from N_0]; omega
  obtain ⟨-, -, -, -, -, -, -, -, e40, e41⟩ := idx_facts ⟨(i 0).val / 5000, hN⟩
  refine ⟨⟨(i 0).val / 5000, hN⟩, flush0_4 _, ?_⟩
  rw [mem_blk4]
  intro a
  match a with
  | ⟨0, _⟩ =>
    show win0_4.index ⟨(i 0).val / 5000, hN⟩ (0 : Fin 2) * 5000 ≤ (i 0).val ∧ (i 0).val < win0_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, hN⟩ (1 : Fin 2) * 128 ≤ (i 1).val ∧ (i 1).val < win0_4.index ⟨(i 0).val / 5000, hN⟩ (1 : Fin 2) * 128 + 128
    rw [e41]; omega

/-- After the launch the first result is the dense layer of the table … -/
theorem final3 (c : Dev nD) : (dat0 V c).arrAt 3 cfg0.N = dense (xArr V c) (wArr V c) :=
  (dat0 V c).arrAt_eq_of_cover 3 (dense (xArr V c) (wArr V c)) (fun t _ => flushed3_eq V c t) cover3

/-- … and the second the running total plus it. -/
theorem final4 (c : Dev nD) : (dat0 V c).arrAt 4 cfg0.N = addf (tArr V c) (dense (xArr V c) (wArr V c)) :=
  (dat0 V c).arrAt_eq_of_cover 4 (addf (tArr V c) (dense (xArr V c) (wArr V c))) (fun t _ => flushed4_eq V c t) cover4

end Cert.KernelIdeal.Region0

end
-- ==== Proof.Region1Value.lean ====
/-
  What launch 1 leaves in its two output arrays, for any contents `V` of the buffers when it is entered.
  Its grid has 20 points; point `t` takes rows `5000 t … 5000 t + 4999` of the table `main_v27` and of the running total
  `main_v14_1`, the whole filter `main_arg6`, and writes the same rows of the two results. The row blocks tile the 100000 rows, so
  after the launch the first result is the dense layer of the table and the second the running total plus it.
-/
import proofs.«179333_j4269197492538_1_alg».proof.Proof.Gen.KernelIdeal.Frame
import proofs.«179333_j4269197492538_1_alg».proof.Proof.BlockLayer

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Layer Cert.KernelIdeal.Layer

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the row-tiled windows at block row `t`, the filter at its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- The table, the filter and the running total as the launch finds them. -/
abbrev xArr (c : Dev nD) : FVec Ideal S100000x128 .f32 := V c main_v27
abbrev wArr (c : Dev nD) : FVec Ideal S128x128 .f32 := V c main_arg6
abbrev tArr (c : Dev nD) : FVec Ideal S100000x128 .f32 := V c main_v14_1

/-- Point `t` writes back, into the first result, block `t` of the dense layer of the table. -/
theorem flushed3_eq (c : Dev nD) (t : Fin cfg1.N) :
    (dat1 V c).flushed 3 t = ((cfg1.win 3).blk t).view.read (Elt Ideal) (dense (xArr V c) (wArr V c)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz]
  obtain ⟨e00, e01, e10, e11, e20, e21, e30, e31, e40, e41⟩ := idx_facts t
  funext y
  show k1_pay1 (F := Ideal) (iblk1 V c 0 t) (iblk1 V c 1 t) y = dense (xArr V c) (wArr V c) (((cfg1.win 3).blk t).view.emb y)
  refine pay1_at_1 (xArr V c) (wArr V c) (iblk1 V c 0 t) (iblk1 V c 1 t) y (((cfg1.win 3).blk t).view.emb y) ?_ ?_ ?_
  · -- the filter's one block is the filter
    intro a
    show V c main_arg6 (((cfg1.win 1).blk t).view.emb a) = V c main_arg6 a
    refine congrArg (V c main_arg6) (funext fun b => Fin.ext ?_)
    match b with
    | ⟨0, _⟩ => show win1_1.index t (0 : Fin 2) * 128 + 1 * (a 0).val = (a 0).val; omega
    | ⟨1, _⟩ => show win1_1.index t (1 : Fin 2) * 128 + 1 * (a 1).val = (a 1).val; omega
  · -- the result's column is the block's
    show win1_3.index t (1 : Fin 2) * 128 + 1 * (y 1).val = (y 1).val; omega
  · -- the table's block row is the result's
    intro k
    show V c main_v27 (((cfg1.win 0).blk t).view.emb (ix2 (⟨(y 0).val, (y 0).isLt⟩ : Fin 5000) k)) = V c main_v27 _
    refine congrArg (V c main_v27) (funext fun b => Fin.ext ?_)
    match b with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * k.val = k.val; omega

/-- … and, into the second result, block `t` of the running total plus the dense layer. -/
theorem flushed4_eq (c : Dev nD) (t : Fin cfg1.N) :
    (dat1 V c).flushed 4 t = ((cfg1.win 4).blk t).view.read (Elt Ideal) (addf (tArr V c) (dense (xArr V c) (wArr V c))) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz]
  obtain ⟨e00, e01, e10, e11, e20, e21, e30, e31, e40, e41⟩ := idx_facts t
  funext y
  show k1_pay2 (F := Ideal) (iblk1 V c 0 t) (iblk1 V c 1 t) (iblk1 V c 2 t) y
    = addf (tArr V c) (dense (xArr V c) (wArr V c)) (((cfg1.win 4).blk t).view.emb y)
  refine pay2_at_1 (xArr V c) (tArr V c) (wArr V c) (iblk1 V c 0 t) (iblk1 V c 2 t) (iblk1 V c 1 t) y
    (((cfg1.win 4).blk t).view.emb y) ?_ ?_ ?_ ?_
  · intro a
    show V c main_arg6 (((cfg1.win 1).blk t).view.emb a) = V c main_arg6 a
    refine congrArg (V c main_arg6) (funext fun b => Fin.ext ?_)
    match b with
    | ⟨0, _⟩ => show win1_1.index t (0 : Fin 2) * 128 + 1 * (a 0).val = (a 0).val; omega
    | ⟨1, _⟩ => show win1_1.index t (1 : Fin 2) * 128 + 1 * (a 1).val = (a 1).val; omega
  · show win1_4.index t (1 : Fin 2) * 128 + 1 * (y 1).val = (y 1).val; omega
  · intro k
    show V c main_v27 (((cfg1.win 0).blk t).view.emb (ix2 (⟨(y 0).val, (y 0).isLt⟩ : Fin 5000) k)) = V c main_v27 _
    refine congrArg (V c main_v27) (funext fun b => Fin.ext ?_)
    match b with
    | ⟨0, _⟩ => show win1_0.index t (0 : Fin 2) * 5000 + 1 * (y 0).val = win1_4.index t (0 : Fin 2) * 5000 + 1 * (y 0).val; omega
    | ⟨1, _⟩ => show win1_0.index t (1 : Fin 2) * 128 + 1 * k.val = k.val; omega
  · -- the running total's block is read where the result's block is written
    show V c main_v14_1 (((cfg1.win 2).blk t).view.emb y) = V c main_v14_1 (((cfg1.win 4).blk t).view.emb y)
    refine congrArg (V c main_v14_1) (funext fun b => Fin.ext ?_)
    match b with
    | ⟨0, _⟩ => show win1_2.index t (0 : Fin 2) * 5000 + 1 * (y 0).val = win1_4.index t (0 : Fin 2) * 5000 + 1 * (y 0).val; omega
    | ⟨1, _⟩ => show win1_2.index t (1 : Fin 2) * 128 + 1 * (y 1).val = win1_4.index t (1 : Fin 2) * 128 + 1 * (y 1).val; omega

/-- An entry is in point `t`'s block of the first result iff each coordinate is in the block's range. -/
theorem mem_blk3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v28_0).slice (win1_3.rect t)).set ↔ _
  rw [View.set_slice_whole, Rect.mem_set_unit]
  exact Iff.rfl

theorem mem_blk4 (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28_1).slice (win1_4.rect t)).set ↔ _
  rw [View.set_slice_whole, Rect.mem_set_unit]
  exact Iff.rfl

/-- Row `r` is in the block of point `r / 5000`: the blocks cover the result. -/
theorem cover3 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : (i 0).val / 5000 < cfg1.N := by rw [show cfg1.N = 20 from N_1]; omega
  obtain ⟨-, -, -, -, -, -, e30, e31, -, -⟩ := idx_facts ⟨(i 0).val / 5000, hN⟩
  refine ⟨⟨(i 0).val / 5000, hN⟩, flush1_3 _, ?_⟩
  rw [mem_blk3]
  intro a
  match a with
  | ⟨0, _⟩ =>
    show win1_3.index ⟨(i 0).val / 5000, hN⟩ (0 : Fin 2) * 5000 ≤ (i 0).val ∧ (i 0).val < win1_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win1_3.index ⟨(i 0).val / 5000, hN⟩ (1 : Fin 2) * 128 ≤ (i 1).val ∧ (i 1).val < win1_3.index ⟨(i 0).val / 5000, hN⟩ (1 : Fin 2) * 128 + 128
    rw [e31]; omega

theorem cover4 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : (i 0).val / 5000 < cfg1.N := by rw [show cfg1.N = 20 from N_1]; omega
  obtain ⟨-, -, -, -, -, -, -, -, e40, e41⟩ := idx_facts ⟨(i 0).val / 5000, hN⟩
  refine ⟨⟨(i 0).val / 5000, hN⟩, flush1_4 _, ?_⟩
  rw [mem_blk4]
  intro a
  match a with
  | ⟨0, _⟩ =>
    show win1_4.index ⟨(i 0).val / 5000, hN⟩ (0 : Fin 2) * 5000 ≤ (i 0).val ∧ (i 0).val < win1_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win1_4.index ⟨(i 0).val / 5000, hN⟩ (1 : Fin 2) * 128 ≤ (i 1).val ∧ (i 1).val < win1_4.index ⟨(i 0).val / 5000, hN⟩ (1 : Fin 2) * 128 + 128
    rw [e41]; omega

/-- After the launch the first result is the dense layer of the table … -/
theorem final3 (c : Dev nD) : (dat1 V c).arrAt 3 cfg1.N = dense (xArr V c) (wArr V c) :=
  (dat1 V c).arrAt_eq_of_cover 3 (dense (xArr V c) (wArr V c)) (fun t _ => flushed3_eq V c t) cover3

/-- … and the second the running total plus it. -/
theorem final4 (c : Dev nD) : (dat1 V c).arrAt 4 cfg1.N = addf (tArr V c) (dense (xArr V c) (wArr V c)) :=
  (dat1 V c).arrAt_eq_of_cover 4 (addf (tArr V c) (dense (xArr V c) (wArr V c))) (fun t _ => flushed4_eq V c t) cover4

end Cert.KernelIdeal.Region1

end
-- ==== Proof.Region2Value.lean ====
/-
  What launch 2 leaves in its two output arrays, for any contents `V` of the buffers when it is entered.
  Its grid has 20 points; point `t` takes rows `5000 t … 5000 t + 4999` of the table `main_v41` and of the running total
  `main_v28_1`, the whole filter `main_arg7`, and writes the same rows of the two results. The row blocks tile the 100000 rows, so
  after the launch the first result is the dense layer of the table and the second the running total plus it.
-/
import proofs.«179333_j4269197492538_1_alg».proof.Proof.Gen.KernelIdeal.Frame
import proofs.«179333_j4269197492538_1_alg».proof.Proof.BlockLayer

noncomputable section

namespace Cert.KernelIdeal.Region2

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.Layer Cert.KernelIdeal.Layer

variable (V : (c : Dev nD) → (b : Ref sig .tc) → Buf (Elt Ideal) ((c : Thread nD τ).loc b))

theorem hz : (![0, 0] : Fin 2 → Nat) = fun _ => 0 := funext fun a => by fin_cases a <;> rfl

/-- Where each window's block sits at point `t`: the row-tiled windows at block row `t`, the filter at its one block. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The table, the filter and the running total as the launch finds them. -/
abbrev xArr (c : Dev nD) : FVec Ideal S100000x128 .f32 := V c main_v41
abbrev wArr (c : Dev nD) : FVec Ideal S128x128 .f32 := V c main_arg7
abbrev tArr (c : Dev nD) : FVec Ideal S100000x128 .f32 := V c main_v28_1

/-- Point `t` writes back, into the first result, block `t` of the dense layer of the table. -/
theorem flushed3_eq (c : Dev nD) (t : Fin cfg2.N) :
    (dat2 V c).flushed 3 t = ((cfg2.win 3).blk t).view.read (Elt Ideal) (dense (xArr V c) (wArr V c)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz]
  obtain ⟨e00, e01, e10, e11, e20, e21, e30, e31, e40, e41⟩ := idx_facts t
  funext y
  show k2_pay1 (F := Ideal) (iblk2 V c 0 t) (iblk2 V c 1 t) y = dense (xArr V c) (wArr V c) (((cfg2.win 3).blk t).view.emb y)
  refine pay1_at_2 (xArr V c) (wArr V c) (iblk2 V c 0 t) (iblk2 V c 1 t) y (((cfg2.win 3).blk t).view.emb y) ?_ ?_ ?_
  · -- the filter's one block is the filter
    intro a
    show V c main_arg7 (((cfg2.win 1).blk t).view.emb a) = V c main_arg7 a
    refine congrArg (V c main_arg7) (funext fun b => Fin.ext ?_)
    match b with
    | ⟨0, _⟩ => show win2_1.index t (0 : Fin 2) * 128 + 1 * (a 0).val = (a 0).val; omega
    | ⟨1, _⟩ => show win2_1.index t (1 : Fin 2) * 128 + 1 * (a 1).val = (a 1).val; omega
  · -- the result's column is the block's
    show win2_3.index t (1 : Fin 2) * 128 + 1 * (y 1).val = (y 1).val; omega
  · -- the table's block row is the result's
    intro k
    show V c main_v41 (((cfg2.win 0).blk t).view.emb (ix2 (⟨(y 0).val, (y 0).isLt⟩ : Fin 5000) k)) = V c main_v41 _
    refine congrArg (V c main_v41) (funext fun b => Fin.ext ?_)
    match b with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * k.val = k.val; omega

/-- … and, into the second result, block `t` of the running total plus the dense layer. -/
theorem flushed4_eq (c : Dev nD) (t : Fin cfg2.N) :
    (dat2 V c).flushed 4 t = ((cfg2.win 4).blk t).view.read (Elt Ideal) (addf (tArr V c) (dense (xArr V c) (wArr V c))) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x128) hz]
  obtain ⟨e00, e01, e10, e11, e20, e21, e30, e31, e40, e41⟩ := idx_facts t
  funext y
  show k2_pay2 (F := Ideal) (iblk2 V c 0 t) (iblk2 V c 1 t) (iblk2 V c 2 t) y
    = addf (tArr V c) (dense (xArr V c) (wArr V c)) (((cfg2.win 4).blk t).view.emb y)
  refine pay2_at_2 (xArr V c) (tArr V c) (wArr V c) (iblk2 V c 0 t) (iblk2 V c 2 t) (iblk2 V c 1 t) y
    (((cfg2.win 4).blk t).view.emb y) ?_ ?_ ?_ ?_
  · intro a
    show V c main_arg7 (((cfg2.win 1).blk t).view.emb a) = V c main_arg7 a
    refine congrArg (V c main_arg7) (funext fun b => Fin.ext ?_)
    match b with
    | ⟨0, _⟩ => show win2_1.index t (0 : Fin 2) * 128 + 1 * (a 0).val = (a 0).val; omega
    | ⟨1, _⟩ => show win2_1.index t (1 : Fin 2) * 128 + 1 * (a 1).val = (a 1).val; omega
  · show win2_4.index t (1 : Fin 2) * 128 + 1 * (y 1).val = (y 1).val; omega
  · intro k
    show V c main_v41 (((cfg2.win 0).blk t).view.emb (ix2 (⟨(y 0).val, (y 0).isLt⟩ : Fin 5000) k)) = V c main_v41 _
    refine congrArg (V c main_v41) (funext fun b => Fin.ext ?_)
    match b with
    | ⟨0, _⟩ => show win2_0.index t (0 : Fin 2) * 5000 + 1 * (y 0).val = win2_4.index t (0 : Fin 2) * 5000 + 1 * (y 0).val; omega
    | ⟨1, _⟩ => show win2_0.index t (1 : Fin 2) * 128 + 1 * k.val = k.val; omega
  · -- the running total's block is read where the result's block is written
    show V c main_v28_1 (((cfg2.win 2).blk t).view.emb y) = V c main_v28_1 (((cfg2.win 4).blk t).view.emb y)
    refine congrArg (V c main_v28_1) (funext fun b => Fin.ext ?_)
    match b with
    | ⟨0, _⟩ => show win2_2.index t (0 : Fin 2) * 5000 + 1 * (y 0).val = win2_4.index t (0 : Fin 2) * 5000 + 1 * (y 0).val; omega
    | ⟨1, _⟩ => show win2_2.index t (1 : Fin 2) * 128 + 1 * (y 1).val = win2_4.index t (1 : Fin 2) * 128 + 1 * (y 1).val; omega

/-- An entry is in point `t`'s block of the first result iff each coordinate is in the block's range. -/
theorem mem_blk3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v42_0).slice (win2_3.rect t)).set ↔ _
  rw [View.set_slice_whole, Rect.mem_set_unit]
  exact Iff.rfl

theorem mem_blk4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v42_1).slice (win2_4.rect t)).set ↔ _
  rw [View.set_slice_whole, Rect.mem_set_unit]
  exact Iff.rfl

/-- Row `r` is in the block of point `r / 5000`: the blocks cover the result. -/
theorem cover3 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : (i 0).val / 5000 < cfg2.N := by rw [show cfg2.N = 20 from N_2]; omega
  obtain ⟨-, -, -, -, -, -, e30, e31, -, -⟩ := idx_facts ⟨(i 0).val / 5000, hN⟩
  refine ⟨⟨(i 0).val / 5000, hN⟩, flush2_3 _, ?_⟩
  rw [mem_blk3]
  intro a
  match a with
  | ⟨0, _⟩ =>
    show win2_3.index ⟨(i 0).val / 5000, hN⟩ (0 : Fin 2) * 5000 ≤ (i 0).val ∧ (i 0).val < win2_3.index ⟨(i 0).val / 5000, hN⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hN⟩ (1 : Fin 2) * 128 ≤ (i 1).val ∧ (i 1).val < win2_3.index ⟨(i 0).val / 5000, hN⟩ (1 : Fin 2) * 128 + 128
    rw [e31]; omega

theorem cover4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : (i 0).val / 5000 < cfg2.N := by rw [show cfg2.N = 20 from N_2]; omega
  obtain ⟨-, -, -, -, -, -, -, -, e40, e41⟩ := idx_facts ⟨(i 0).val / 5000, hN⟩
  refine ⟨⟨(i 0).val / 5000, hN⟩, flush2_4 _, ?_⟩
  rw [mem_blk4]
  intro a
  match a with
  | ⟨0, _⟩ =>
    show win2_4.index ⟨(i 0).val / 5000, hN⟩ (0 : Fin 2) * 5000 ≤ (i 0).val ∧ (i 0).val < win2_4.index ⟨(i 0).val / 5000, hN⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, hN⟩ (1 : Fin 2) * 128 ≤ (i 1).val ∧ (i 1).val < win2_4.index ⟨(i 0).val / 5000, hN⟩ (1 : Fin 2) * 128 + 128
    rw [e41]; omega

/-- After the launch the first result is the dense layer of the table … -/
theorem final3 (c : Dev nD) : (dat2 V c).arrAt 3 cfg2.N = dense (xArr V c) (wArr V c) :=
  (dat2 V c).arrAt_eq_of_cover 3 (dense (xArr V c) (wArr V c)) (fun t _ => flushed3_eq V c t) cover3

/-- … and the second the running total plus it. -/
theorem final4 (c : Dev nD) : (dat2 V c).arrAt 4 cfg2.N = addf (tArr V c) (dense (xArr V c) (wArr V c)) :=
  (dat2 V c).arrAt_eq_of_cover 4 (addf (tArr V c) (dense (xArr V c) (wArr V c))) (fun t _ => flushed4_eq V c t) cover4

end Cert.KernelIdeal.Region2

end
-- ==== Proof.KernelFold.lean ====
/-
  The kernel program's two results as one function of its arguments.

  Between launches the host scales gathered rows and scatter-adds them (`spmm`, the sparse product with the adjacency
  triples), exactly as the reference does; each launch turns the table `x` it is given into `dense x w` and adds that to
  the running total (Region0Value … Region2Value). Reading the buffers' contents boundary by boundary — a host stretch
  by its operations' composed term, a launch by its two result arrays — the last total is
  `e₀ + d₁ + d₂ + d₃` with `e₀` the two embedding tables stacked and `dₖ₊₁ = dense (spmm dₖ) fₖ`, `d₀ = e₀`;
  the results are its first 60000 rows and its last 40000.
-/
import proofs.«179333_j4269197492538_1_alg».proof.Proof.Gen.KernelIdeal.Frame
import proofs.«179333_j4269197492538_1_alg».proof.Proof.Region0Value
import proofs.«179333_j4269197492538_1_alg».proof.Proof.Region1Value
import proofs.«179333_j4269197492538_1_alg».proof.Proof.Region2Value
import Idealize.ShloMosaic.Lib.StableHlo.Run

noncomputable section

namespace Cert.KernelIdeal.Fold

open Cert.KernelIdeal Cert.KernelIdeal.Gen Idealize.ShloMosaic Idealize.ShloMosaic.TcCoe Idealize.SL.Sem Idealize.ShloMosaic.StableHlo
open Cert.Layer

section Terms
variable {F : FTy → Type} [FloatOps F]

/-- The sparse product: row `col e` of `x` (a negative index counted from the end), scaled by `val e`, added into row
    `row e` of a zero table, over all edges `e` — as the host operations between the launches compute it. -/
def spmm (row col : (⟨S1600000, .i32⟩ : BufTy).Contents (Elt F)) (val : (⟨S1600000, .f32⟩ : BufTy).Contents (Elt F))
    (x : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 x
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The two embedding tables stacked. -/
def stacked (u : (⟨S60000x128, .f32⟩ : BufTy).Contents (Elt F)) (v : (⟨S40000x128, .f32⟩ : BufTy).Contents (Elt F)) :
    (⟨S100000x128, .f32⟩ : BufTy).Contents (Elt F) :=
  concatenate S100000x128 0 [⟨S60000x128, u⟩, ⟨S40000x128, v⟩] concatenates_S60000x128_S40000x128_S100000x128_d0

/-- The total after three layers. -/
def total3 (row col : (⟨S1600000, .i32⟩ : BufTy).Contents (Elt F)) (val : (⟨S1600000, .f32⟩ : BufTy).Contents (Elt F))
    (u : (⟨S60000x128, .f32⟩ : BufTy).Contents (Elt F)) (v : (⟨S40000x128, .f32⟩ : BufTy).Contents (Elt F))
    (f0 f1 f2 : (⟨S128x128, .f32⟩ : BufTy).Contents (Elt F)) : (⟨S100000x128, .f32⟩ : BufTy).Contents (Elt F) :=
  addf (addf (addf (stacked u v)
      (dense (spmm row col val (stacked u v)) f0))
      (dense (spmm row col val (dense (spmm row col val (stacked u v)) f0)) f1))
      (dense (spmm row col val (dense (spmm row col val (dense (spmm row col val (stacked u v)) f0)) f1)) f2)

/-! ## The host stretches, at any contents `W` of the buffers they start from -/

variable (W : Valuation τ sig (Elt F))

theorem stretch0_x : after (hostOps0 (F := F)) W (Proc.devRef .tc main_v13)
    = spmm (W (Proc.devRef .tc main_arg0)) (W (Proc.devRef .tc main_arg1)) (W (Proc.devRef .tc main_arg2))
        (stacked (W (Proc.devRef .tc main_arg3)) (W (Proc.devRef .tc main_arg4))) := by
  unfold spmm stacked
  after_results_simp <;> rfl
theorem stretch0_t : after (hostOps0 (F := F)) W (Proc.devRef .tc main_v0)
    = stacked (W (Proc.devRef .tc main_arg3)) (W (Proc.devRef .tc main_arg4)) := by
  unfold stacked
  after_results_simp <;> rfl
theorem stretch0_keep (b : Ref sig .tc) (hb : b = main_arg0 ∨ b = main_arg1 ∨ b = main_arg2 ∨ b = main_arg5 ∨ b = main_arg6 ∨ b = main_arg7) :
    after (hostOps0 (F := F)) W (Proc.devRef .tc b) = W (Proc.devRef .tc b) := by
  rcases hb with rfl | rfl | rfl | rfl | rfl | rfl <;> after_results_simp

theorem stretch1_x : after (hostOps1 (F := F)) W (Proc.devRef .tc main_v27)
    = spmm (W (Proc.devRef .tc main_arg0)) (W (Proc.devRef .tc main_arg1)) (W (Proc.devRef .tc main_arg2))
        (W (Proc.devRef .tc main_v14_0)) := by
  unfold spmm
  after_results_simp <;> rfl
theorem stretch1_keep (b : Ref sig .tc) (hb : b = main_arg0 ∨ b = main_arg1 ∨ b = main_arg2 ∨ b = main_arg6 ∨ b = main_arg7 ∨ b = main_v14_1) :
    after (hostOps1 (F := F)) W (Proc.devRef .tc b) = W (Proc.devRef .tc b) := by
  rcases hb with rfl | rfl | rfl | rfl | rfl | rfl <;> after_results_simp

theorem stretch2_x : after (hostOps2 (F := F)) W (Proc.devRef .tc main_v41)
    = spmm (W (Proc.devRef .tc main_arg0)) (W (Proc.devRef .tc main_arg1)) (W (Proc.devRef .tc main_arg2))
        (W (Proc.devRef .tc main_v28_0)) := by
  unfold spmm
  after_results_simp <;> rfl
theorem stretch2_keep (b : Ref sig .tc) (hb : b = main_arg7 ∨ b = main_v28_1) :
    after (hostOps2 (F := F)) W (Proc.devRef .tc b) = W (Proc.devRef .tc b) := by
  rcases hb with rfl | rfl <;> after_results_simp

theorem stretch3_users : after (hostOps3 (F := F)) W (Proc.devRef .tc main_v43)
    = extractStridedSlice S60000x128 ![0, 0] (W (Proc.devRef .tc main_v42_1)) slices_S100000x128_S60000x128_0_0 := by
  after_results_simp <;> rfl
theorem stretch3_items : after (hostOps3 (F := F)) W (Proc.devRef .tc main_v44)
    = extractStridedSlice S40000x128 ![60000, 0] (W (Proc.devRef .tc main_v42_1)) slices_S100000x128_S40000x128_60000_0 := by
  after_results_simp <;> rfl

end Terms

/-! ## The boundaries, from the launch memory -/

variable (m : (ℓ : Loc nD τ sig) → Buf (Elt Ideal) ℓ) (ρ : Dev nD → PrngReg)

/-- The adjacency triples and the filters reach every boundary as launched. -/
theorem W1_keep (c : Dev nD) (b : Ref sig .tc) (hb : b = main_arg0 ∨ b = main_arg1 ∨ b = main_arg2 ∨ b = main_arg5 ∨ b = main_arg6 ∨ b = main_arg7) :
    W1 m ρ c (Proc.devRef .tc b) = m ((c : Thread nD τ).loc b) := stretch0_keep (W0 m ρ c) b hb

/-- The table the first launch is given, and the total it starts from. -/
abbrev Tbl : Type := FVec Ideal S100000x128 .f32
abbrev Flt : Type := FVec Ideal S128x128 .f32
abbrev e0 (c : Dev nD) : Tbl :=
  stacked (m ((c : Thread nD τ).loc main_arg3)) (m ((c : Thread nD τ).loc main_arg4))
abbrev sp (c : Dev nD) (x : Tbl) : Tbl :=
  spmm (m ((c : Thread nD τ).loc main_arg0)) (m ((c : Thread nD τ).loc main_arg1)) (m ((c : Thread nD τ).loc main_arg2)) x
abbrev f0 (c : Dev nD) : Flt := m ((c : Thread nD τ).loc main_arg5)
abbrev f1 (c : Dev nD) : Flt := m ((c : Thread nD τ).loc main_arg6)
abbrev f2 (c : Dev nD) : Flt := m ((c : Thread nD τ).loc main_arg7)
abbrev d1 (c : Dev nD) : Tbl := dense (F := Ideal) (sp m c (e0 m c)) (f0 m c)
abbrev d2 (c : Dev nD) : Tbl := dense (F := Ideal) (sp m c (d1 m c)) (f1 m c)
abbrev d3 (c : Dev nD) : Tbl := dense (F := Ideal) (sp m c (d2 m c)) (f2 m c)

/-- After the first launch: its first result is `d₁`, its second `e₀ + d₁`. -/
theorem W2_emb (c : Dev nD) : W2 m ρ c (Proc.devRef .tc main_v14_0) = d1 m c :=
  (W2_arr m ρ c 3).trans ((Region0.final3 (V1 m ρ) c).trans
    (congrArg₂ (dense (F := Ideal)) (stretch0_x (W0 m ρ c)) (W1_keep m ρ c main_arg5 (by simp))))
theorem W2_tot (c : Dev nD) : W2 m ρ c (Proc.devRef .tc main_v14_1) = addf (e0 m c) (d1 m c) :=
  (W2_arr m ρ c 4).trans ((Region0.final4 (V1 m ρ) c).trans
    (congrArg₂ (addf (F := Ideal)) (stretch0_t (W0 m ρ c))
      (congrArg₂ (dense (F := Ideal)) (stretch0_x (W0 m ρ c)) (W1_keep m ρ c main_arg5 (by simp)))))
theorem W2_keep (c : Dev nD) (b : Ref sig .tc) (hb : b = main_arg0 ∨ b = main_arg1 ∨ b = main_arg2 ∨ b = main_arg6 ∨ b = main_arg7) :
    W2 m ρ c (Proc.devRef .tc b) = m ((c : Thread nD τ).loc b) := by
  have h1 : W1 m ρ c (Proc.devRef .tc b) = m ((c : Thread nD τ).loc b) := W1_keep m ρ c b (by rcases hb with h | h | h | h | h <;> simp [h])
  rcases hb with rfl | rfl | rfl | rfl | rfl <;> exact (W2_of_ne m ρ c _ (by decide)).trans h1

/-- After the second launch: `d₂` and `e₀ + d₁ + d₂`. -/
theorem W3_keep (c : Dev nD) (b : Ref sig .tc) (hb : b = main_arg0 ∨ b = main_arg1 ∨ b = main_arg2 ∨ b = main_arg6 ∨ b = main_arg7) :
    W3 m ρ c (Proc.devRef .tc b) = m ((c : Thread nD τ).loc b) :=
  (stretch1_keep (W2 m ρ c) b (by rcases hb with h | h | h | h | h <;> simp [h])).trans (W2_keep m ρ c b hb)
theorem W3_x (c : Dev nD) : W3 m ρ c (Proc.devRef .tc main_v27) = sp m c (d1 m c) :=
  (stretch1_x (W2 m ρ c)).trans
    (by rw [W2_keep m ρ c main_arg0 (by simp), W2_keep m ρ c main_arg1 (by simp), W2_keep m ρ c main_arg2 (by simp), W2_emb])
theorem W3_tot (c : Dev nD) : W3 m ρ c (Proc.devRef .tc main_v14_1) = addf (e0 m c) (d1 m c) :=
  (stretch1_keep (W2 m ρ c) main_v14_1 (by simp)).trans (W2_tot m ρ c)
theorem W4_emb (c : Dev nD) : W4 m ρ c (Proc.devRef .tc main_v28_0) = d2 m c :=
  (W4_arr m ρ c 3).trans ((Region1.final3 (V3 m ρ) c).trans
    (congrArg₂ (dense (F := Ideal)) (W3_x m ρ c) (W3_keep m ρ c main_arg6 (by simp))))
theorem W4_tot (c : Dev nD) : W4 m ρ c (Proc.devRef .tc main_v28_1) = addf (addf (e0 m c) (d1 m c)) (d2 m c) :=
  (W4_arr m ρ c 4).trans ((Region1.final4 (V3 m ρ) c).trans
    (congrArg₂ (addf (F := Ideal)) (W3_tot m ρ c)
      (congrArg₂ (dense (F := Ideal)) (W3_x m ρ c) (W3_keep m ρ c main_arg6 (by simp)))))
theorem W4_keep (c : Dev nD) (b : Ref sig .tc) (hb : b = main_arg0 ∨ b = main_arg1 ∨ b = main_arg2 ∨ b = main_arg7) :
    W4 m ρ c (Proc.devRef .tc b) = m ((c : Thread nD τ).loc b) := by
  have h3 : W3 m ρ c (Proc.devRef .tc b) = m ((c : Thread nD τ).loc b) := W3_keep m ρ c b (by rcases hb with h | h | h | h <;> simp [h])
  rcases hb with rfl | rfl | rfl | rfl <;> exact (W4_of_ne m ρ c _ (by decide)).trans h3

/-- After the third launch the total is `e₀ + d₁ + d₂ + d₃`. -/
theorem W5_x (c : Dev nD) : W5 m ρ c (Proc.devRef .tc main_v41) = sp m c (d2 m c) :=
  (stretch2_x (W4 m ρ c)).trans
    (by rw [W4_keep m ρ c main_arg0 (by simp), W4_keep m ρ c main_arg1 (by simp), W4_keep m ρ c main_arg2 (by simp), W4_emb])
theorem W5_w (c : Dev nD) : W5 m ρ c (Proc.devRef .tc main_arg7) = f2 m c :=
  (stretch2_keep (W4 m ρ c) main_arg7 (by simp)).trans (W4_keep m ρ c main_arg7 (by simp))
theorem W5_tot (c : Dev nD) : W5 m ρ c (Proc.devRef .tc main_v28_1) = addf (addf (e0 m c) (d1 m c)) (d2 m c) :=
  (stretch2_keep (W4 m ρ c) main_v28_1 (by simp)).trans (W4_tot m ρ c)
theorem W6_tot (c : Dev nD) : W6 m ρ c (Proc.devRef .tc main_v42_1) = addf (addf (addf (e0 m c) (d1 m c)) (d2 m c)) (d3 m c) :=
  (W6_arr m ρ c 4).trans ((Region2.final4 (V5 m ρ) c).trans
    (congrArg₂ (addf (F := Ideal)) (W5_tot m ρ c)
      (congrArg₂ (dense (F := Ideal)) (W5_x m ρ c) (W5_w m ρ c))))

/-- The total after three layers, of the launch memory's arguments. -/
abbrev total (c : Dev nD) : Tbl :=
  total3 (m ((c : Thread nD τ).loc main_arg0)) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6)) (m ((c : Thread nD τ).loc main_arg7))

theorem total_eq (c : Dev nD) : addf (addf (addf (e0 m c) (d1 m c)) (d2 m c)) (d3 m c) = total m c := rfl

/-- The two results: the total's first 60000 rows and its last 40000. -/
theorem W7_users (c : Dev nD) : W7 m ρ c (Proc.devRef .tc main_v43)
    = extractStridedSlice S60000x128 ![0, 0] (total m c) slices_S100000x128_S60000x128_0_0 :=
  (stretch3_users (W6 m ρ c)).trans
    (congrArg (fun T : Tbl => extractStridedSlice S60000x128 ![0, 0] T slices_S100000x128_S60000x128_0_0) ((W6_tot m ρ c).trans (total_eq m c)))
theorem W7_items (c : Dev nD) : W7 m ρ c (Proc.devRef .tc main_v44)
    = extractStridedSlice S40000x128 ![60000, 0] (total m c) slices_S100000x128_S40000x128_60000_0 :=
  (stretch3_items (W6 m ρ c)).trans
    (congrArg (fun T : Tbl => extractStridedSlice S40000x128 ![60000, 0] T slices_S100000x128_S40000x128_60000_0) ((W6_tot m ρ c).trans (total_eq m c)))

end Cert.KernelIdeal.Fold

end
-- ==== Proof.RefValue.lean ====
/-
  The reference program's two results as one function of its arguments: the total after three layers,
  `e₀ + d₁ + d₂ + d₃` with `e₀` the two embedding tables stacked, `dₖ₊₁ = dense (spmm dₖ) fₖ` and `d₀ = e₀`, cut into
  its first 60000 rows and its last 40000. The reference's run states each result as its operations' composed term;
  that term is this function, written out.
-/
import proofs.«179333_j4269197492538_1_alg».proof.Proof.Gen.ReferenceIdeal.Run
import proofs.«179333_j4269197492538_1_alg».proof.Proof.HostLayer

noncomputable section

namespace Cert.ReferenceIdeal.RefValue

open Cert.ReferenceIdeal Cert.ReferenceIdeal.Gen Cert.ReferenceIdeal.Value Idealize.ShloMosaic Idealize.ShloMosaic.TcCoe Idealize.SL.Sem
open Cert.Layer

variable {F : FTy → Type} [FloatOps F]

/-- The sparse product: row `col e` of `x` (a negative index counted from the end), scaled by `val e`, added into row
    `row e` of a zero table, over all edges `e`. -/
def spmm (row col : (⟨S1600000, .i32⟩ : BufTy).Contents (Elt F)) (val : (⟨S1600000, .f32⟩ : BufTy).Contents (Elt F))
    (x : (⟨S100000x128, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 val))
      (Host.gather gather_S100000x128_S1600000x1_S1600000x128_1_0_n_n_0_1_1128 x
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The two embedding tables stacked. -/
def stacked (u : (⟨S60000x128, .f32⟩ : BufTy).Contents (Elt F)) (v : (⟨S40000x128, .f32⟩ : BufTy).Contents (Elt F)) :
    (⟨S100000x128, .f32⟩ : BufTy).Contents (Elt F) :=
  concatenate S100000x128 0 [⟨S60000x128, u⟩, ⟨S40000x128, v⟩] concatenates_S60000x128_S40000x128_S100000x128_d0

/-- The total after three layers. -/
def total3 (row col : (⟨S1600000, .i32⟩ : BufTy).Contents (Elt F)) (val : (⟨S1600000, .f32⟩ : BufTy).Contents (Elt F))
    (u : (⟨S60000x128, .f32⟩ : BufTy).Contents (Elt F)) (v : (⟨S40000x128, .f32⟩ : BufTy).Contents (Elt F))
    (f0 f1 f2 : (⟨S128x128, .f32⟩ : BufTy).Contents (Elt F)) : (⟨S100000x128, .f32⟩ : BufTy).Contents (Elt F) :=
  addf (addf (addf (stacked u v)
      (dense (spmm row col val (stacked u v)) f0))
      (dense (spmm row col val (dense (spmm row col val (stacked u v)) f0)) f1))
      (dense (spmm row col val (dense (spmm row col val (dense (spmm row col val (stacked u v)) f0)) f1)) f2)

variable (m : (ℓ : Loc nD τ sig) → Buf (Elt F) ℓ)

/-- The total, of a memory's arguments. -/
abbrev total (c : Dev nD) : (⟨S100000x128, .f32⟩ : BufTy).Contents (Elt F) :=
  total3 (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))

set_option maxRecDepth 8192 in
/-- The first result's term is the total's first 60000 rows. -/
theorem users_eq (c : Dev nD) :
    res_main_v73 m c = extractStridedSlice S60000x128 ![0, 0] (total m c) slices_S100000x128_S60000x128_0_0 := by
  unfold res_main_v73
  rfl

set_option maxRecDepth 8192 in
/-- The second result's term is the total's last 40000 rows. -/
theorem items_eq (c : Dev nD) :
    res_main_v74 m c = extractStridedSlice S40000x128 ![60000, 0] (total m c) slices_S100000x128_S40000x128_60000_0 := by
  unfold res_main_v74
  rfl

end Cert.ReferenceIdeal.RefValue

end
-- ==== Proof.lean ====
/-
  The certificate of a three-layer graph-convolution forward pass.

  Both programs stack the user and item embedding tables into `e₀`, and three times over (filters `f₀, f₁, f₂`) form the
  sparse product of the adjacency triples with the current table (gather a row per edge, scale it, scatter-add it),
  multiply by the filter, clip at zero, bring every row to unit length (dividing by `max (√(sum of squares)) ε`), and
  add the result to a running total; they return the total's first 60000 rows and its last 40000.
  The reference does all of it with host operations. The kernel program does the sparse products with the same host
  operations and each dense layer in a launch over 20 blocks of 5000 rows. On the extended reals a block's product into
  a zero accumulator is the row-by-column sum, the lane sum is the row's sum, and a row of the layer depends on that row
  of the table alone, so the 20 blocks' results are the blocks of the reference's dense layer of the whole table
  (KernelLayer, HostLayer, BlockLayer; Region0Value … Region2Value). Reading the kernel program's buffers boundary by
  boundary (KernelFold) and the reference's composed term (RefValue) gives the same function of the arguments,
  `e₀ + d₁ + d₂ + d₃` with `dₖ₊₁ = dense (spmm dₖ) fₖ`. No law beyond reading the operations entry by entry is used, so the
  inputs' finiteness is never opened. The idealization rewrote nothing, so `preserves` holds trivially.
-/
import proofs.«179333_j4269197492538_1_alg».proof.Defs
import proofs.«179333_j4269197492538_1_alg».proof.Proof.Gen.Kernel
import proofs.«179333_j4269197492538_1_alg».proof.Proof.Gen.Kernel.Skeleton
import proofs.«179333_j4269197492538_1_alg».proof.Proof.Gen.Kernel.Launch
import proofs.«179333_j4269197492538_1_alg».proof.Proof.Gen.Kernel.Points
import proofs.«179333_j4269197492538_1_alg».proof.Proof.Gen.Kernel.Frame
import proofs.«179333_j4269197492538_1_alg».proof.Proof.Gen.KernelIdeal
import proofs.«179333_j4269197492538_1_alg».proof.Proof.Gen.KernelIdeal.Skeleton
import proofs.«179333_j4269197492538_1_alg».proof.Proof.Gen.KernelIdeal.Launch
import proofs.«179333_j4269197492538_1_alg».proof.Proof.Gen.KernelIdeal.Points
import proofs.«179333_j4269197492538_1_alg».proof.Proof.Gen.KernelIdeal.Frame
import proofs.«179333_j4269197492538_1_alg».proof.Proof.Gen.ReferenceIdeal
import proofs.«179333_j4269197492538_1_alg».proof.Proof.Gen.ReferenceIdeal.Run
import proofs.«179333_j4269197492538_1_alg».proof.Proof.Gen.Pre_finite_inputs
import proofs.«179333_j4269197492538_1_alg».proof.Proof.KernelRun
import proofs.«179333_j4269197492538_1_alg».proof.Proof.KernelFold
import proofs.«179333_j4269197492538_1_alg».proof.Proof.RefValue
import Idealize.ShloMosaic.Adequacy
import Idealize.ShloMosaic.Init

noncomputable section

namespace Cert.Proof

open Idealize.ShloMosaic Idealize.SL.Sem

/-! ## The two programs' terms are one function -/

section Bridge
variable {F : FTy → Type} [FloatOps F]

/-- The sparse product, the stacking and so the total are the same functions in both programs: they are written with
    the same operations over the same dimension numbers. -/
theorem spmm_eq : @Cert.KernelIdeal.Fold.spmm F _ = @Cert.ReferenceIdeal.RefValue.spmm F _ := rfl
theorem stacked_eq : @Cert.KernelIdeal.Fold.stacked F = @Cert.ReferenceIdeal.RefValue.stacked F := rfl
theorem total3_eq : @Cert.KernelIdeal.Fold.total3 F _ = @Cert.ReferenceIdeal.RefValue.total3 F _ := by
  unfold Cert.KernelIdeal.Fold.total3 Cert.ReferenceIdeal.RefValue.total3
  rw [spmm_eq, stacked_eq]

end Bridge

/-- From memories that agree on the arguments the two totals are equal. -/
theorem total_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.RefValue.total m' c = Cert.KernelIdeal.Fold.total m c := by
  unfold Cert.ReferenceIdeal.RefValue.total Cert.KernelIdeal.Fold.total
  rw [h0, h1, h2, h3, h4, h5, h6, h7, total3_eq]

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the total's first 60000 rows and its last 40000, of arguments that agree. -/
theorem algebraic : Cert.algebraic_KernelIdeal_ReferenceIdeal := by
  intro m ρ m' ρ' _ hagree
  refine ⟨fun c => extractStridedSlice Cert.KernelIdeal.S60000x128 ![0, 0] (Cert.KernelIdeal.Fold.total m c) Cert.KernelIdeal.Gen.slices_S100000x128_S60000x128_0_0,
    fun c => extractStridedSlice Cert.KernelIdeal.S40000x128 ![60000, 0] (Cert.KernelIdeal.Fold.total m c) Cert.KernelIdeal.Gen.slices_S100000x128_S40000x128_60000_0, ?_, ?_⟩
  · exact (θ_run Cert.KernelIdeal.defs _ _).mono
      (fun r h c => ⟨(h c).1.trans (Cert.KernelIdeal.Fold.W7_users m ρ c), (h c).2.1.trans (Cert.KernelIdeal.Fold.W7_items m ρ c), (h c).2.2⟩)
      (Cert.KernelIdeal.GenRun.run_named (F := Ideal) m ρ)
  · refine (θ_run Cert.ReferenceIdeal.defs _ _).mono (fun r h c => ?_) (Cert.ReferenceIdeal.Value.run (F := Ideal) m' ρ')
    obtain ⟨h0, h1, h2, h3, h4, h5, h6, h7⟩ := hagree c
    have ht := total_agree m m' c h0 h1 h2 h3 h4 h5 h6 h7
    refine ⟨(h c).1.trans ?_, (h c).2.1.trans ?_, (h c).2.2⟩
    · rw [Cert.ReferenceIdeal.RefValue.users_eq, ht]
    · rw [Cert.ReferenceIdeal.RefValue.items_eq, ht]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
